-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S2048 : Shape := ⟨1, ![2048]⟩
abbrev S2048x5504 : Shape := ⟨2, ![2048, 5504]⟩
abbrev S5504 : Shape := ⟨1, ![5504]⟩
abbrev S5504x2048 : Shape := ⟨2, ![5504, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x5504 : S_.BroadcastsInDim S2048x5504 (![] : Fin 0 → Fin S2048x5504.rank)
  reducesTo_S2048x5504_S_d0_1 : S2048x5504.ReducesTo [0, 1] S_
  bcast_S_S5504 : S_.BroadcastsInDim S5504 (![] : Fin 0 → Fin S5504.rank)
  reducesTo_S5504_S_d0 : S5504.ReducesTo [0] S_
  bcast_S_S5504x2048 : S_.BroadcastsInDim S5504x2048 (![] : Fin 0 → Fin S5504x2048.rank)
  reducesTo_S5504x2048_S_d0_1 : S5504x2048.ReducesTo [0, 1] S_

variable [Facts]

def fn_part2 {F : FTy → Type} [FloatOps F] (main_arg8 : FVec F S2048 .f32) (main_v33 : IVec S_ 1) : IVec S_ 1 :=
  let main_v34 : FVec F S2048 .f32 := Host.absf main_arg8
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg5 : FVec F S2048x5504 .f32) (main_arg6 : FVec F S5504 .f32) (main_arg7 : FVec F S5504x2048 .f32) (main_arg8 : FVec F S2048 .f32) (main_v13 : IVec S_ 1) (main_v16 : IVec S5504 1) : IVec S_ 1 :=
  let main_c_5 : IVec S_ 1 := constantI S_ 1 1#1
  let main_v17 : IVec S_ 1 := (fun x v => Host.reduce IntOp.andi x v reducesTo_S5504_S_d0 h_S_) main_v16 main_c_5
  let main_v18 : IVec S_ 1 := andi main_v13 main_v17
  let main_v19 : FVec F S2048x5504 .f32 := Host.absf main_arg5
  let main_cst_6 : FVec F S_ .f32 := constant S_ .f32 0x7F800000#32
  let main_v20 : FVec F S2048x5504 .f32 := broadcastInDim S2048x5504 ![] bcast_S_S2048x5504 main_cst_6
  let main_v21 : IVec S2048x5504 1 := cmpf .olt main_v19 main_v20
  let main_c_7 : IVec S_ 1 := constantI S_ 1 1#1
  let main_v22 : IVec S_ 1 := (fun x v => Host.reduce IntOp.andi x v reducesTo_S2048x5504_S_d0_1 h_S_) main_v21 main_c_7
  let main_v23 : IVec S_ 1 := andi main_v18 main_v22
  let main_v24 : FVec F S5504 .f32 := Host.absf main_arg6
  let main_cst_8 : FVec F S_ .f32 := constant S_ .f32 0x7F800000#32
  let main_v25 : FVec F S5504 .f32 := broadcastInDim S5504 ![] bcast_S_S5504 main_cst_8
  let main_v26 : IVec S5504 1 := cmpf .olt main_v24 main_v25
  let main_c_9 : IVec S_ 1 := constantI S_ 1 1#1
  let main_v27 : IVec S_ 1 := (fun x v => Host.reduce IntOp.andi x v reducesTo_S5504_S_d0 h_S_) main_v26 main_c_9
  let main_v28 : IVec S_ 1 := andi main_v23 main_v27
  let main_v29 : FVec F S5504x2048 .f32 := Host.absf main_arg7
  let main_cst_10 : FVec F S_ .f32 := constant S_ .f32 0x7F800000#32
  let main_v30 : FVec F S5504x2048 .f32 := broadcastInDim S5504x2048 ![] bcast_S_S5504x2048 main_cst_10
  let main_v31 : IVec S5504x2048 1 := cmpf .olt main_v29 main_v30
  let main_c_11 : IVec S_ 1 := constantI S_ 1 1#1
  let main_v32 : IVec S_ 1 := (fun x v => Host.reduce IntOp.andi x v reducesTo_S5504x2048_S_d0_1 h_S_) main_v31 main_c_11
  let main_v33 : IVec S_ 1 := andi main_v28 main_v32
  fn_part2 (F := F) main_arg8 main_v33

def fn {F : FTy → Type} [FloatOps F] (main_arg0 : FVec F S4x4096x2048 .f32) (main_arg1 : IVec S4x4096 1) (main_arg2 : FVec F S2048 .f32) (main_arg3 : FVec F S2048x5504 .f32) (main_arg4 : FVec F S5504 .f32) (main_arg5 : FVec F S2048x5504 .f32) (main_arg6 : FVec F S5504 .f32) (main_arg7 : FVec F S5504x2048 .f32) (main_arg8 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x5504 .f32 := Host.absf main_arg3
  let main_cst_2 : FVec F S_ .f32 := constant S_ .f32 0x7F800000#32
  let main_v10 : FVec F S2048x5504 .f32 := broadcastInDim S2048x5504 ![] bcast_S_S2048x5504 main_cst_2
  let main_v11 : IVec S2048x5504 1 := cmpf .olt main_v9 main_v10
  let main_c_3 : IVec S_ 1 := constantI S_ 1 1#1
  let main_v12 : IVec S_ 1 := (fun x v => Host.reduce IntOp.andi x v reducesTo_S2048x5504_S_d0_1 h_S_) main_v11 main_c_3
  let main_v13 : IVec S_ 1 := andi main_v8 main_v12
  let main_v14 : FVec F S5504 .f32 := Host.absf main_arg4
  let main_cst_4 : FVec F S_ .f32 := constant S_ .f32 0x7F800000#32
  let main_v15 : FVec F S5504 .f32 := broadcastInDim S5504 ![] bcast_S_S5504 main_cst_4
  let main_v16 : IVec S5504 1 := cmpf .olt main_v14 main_v15
  fn_part1 (F := F) main_arg5 main_arg6 main_arg7 main_arg8 main_v13 main_v16
-- ==== Kernel.lean ====
abbrev S4x4096x2048 : Shape := ⟨3, ![4, 4096, 2048]⟩
abbrev S4x4096 : Shape := ⟨2, ![4, 4096]⟩
abbrev S2048 : Shape := ⟨1, ![2048]⟩
abbrev S2048x5504 : Shape := ⟨2, ![2048, 5504]⟩
abbrev S5504 : Shape := ⟨1, ![5504]⟩
abbrev S5504x2048 : Shape := ⟨2, ![5504, 2048]⟩
abbrev S16384x2048 : Shape := ⟨2, ![16384, 2048]⟩
abbrev S512x2048 : Shape := ⟨2, ![512, 2048]⟩
abbrev S2048x128 : Shape := ⟨2, ![2048, 128]⟩
abbrev S128 : Shape := ⟨1, ![128]⟩
abbrev S128x2048 : Shape := ⟨2, ![128, 2048]⟩
abbrev S512 : Shape := ⟨1, ![512]⟩
abbrev S512x1 : Shape := ⟨2, ![512, 1]⟩
abbrev S1x2048 : Shape := ⟨2, ![1, 2048]⟩
abbrev S512x128 : Shape := ⟨2, ![512, 128]⟩
abbrev S1x128 : Shape := ⟨2, ![1, 128]⟩
abbrev S4x4096x1 : Shape := ⟨3, ![4, 4096, 1]⟩

abbrev nBuf : Space → Nat
  | .hbm => 19
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i1⟩
  | .hbm, ⟨2, _⟩ => ⟨S2048, .f32⟩
  | .hbm, ⟨3, _⟩ => ⟨S2048x5504, .f32⟩
  | .hbm, ⟨4, _⟩ => ⟨S5504, .f32⟩
  | .hbm, ⟨5, _⟩ => ⟨S2048x5504, .f32⟩
  | .hbm, ⟨6, _⟩ => ⟨S5504, .f32⟩
  | .hbm, ⟨7, _⟩ => ⟨S5504x2048, .f32⟩
  | .hbm, ⟨8, _⟩ => ⟨S2048, .f32⟩
  | .hbm, ⟨9, _⟩ => ⟨S16384x2048, .f32⟩
  | .hbm, ⟨10, _⟩ => ⟨S2048x5504, .bf16⟩
  | .hbm, ⟨11, _⟩ => ⟨S2048x5504, .bf16⟩
  | .hbm, ⟨12, _⟩ => ⟨S5504x2048, .bf16⟩
  | .hbm, ⟨13, _⟩ => ⟨S16384x2048, .f32⟩
  | .hbm, ⟨14, _⟩ => ⟨S4x4096x2048, .f32⟩
  | .hbm, ⟨15, _⟩ => ⟨S4x4096x1, .i1⟩
  | .hbm, ⟨16, _⟩ => ⟨S4x4096x1, .f32⟩
  | .hbm, ⟨17, _⟩ => ⟨S4x4096x2048, .f32⟩
  | .hbm, ⟨18, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S2048x128, .bf16⟩
  | .local _ .vmem, ⟨4, _⟩ => ⟨S2048x128, .bf16⟩
  | .local _ .vmem, ⟨5, _⟩ => ⟨S128, .f32⟩
  | .local _ .vmem, ⟨6, _⟩ => ⟨S128, .f32⟩
  | .local _ .vmem, ⟨7, _⟩ => ⟨S2048x128, .bf16⟩
  | .local _ .vmem, ⟨8, _⟩ => ⟨S2048x128, .bf16⟩
  | .local _ .vmem, ⟨9, _⟩ => ⟨S128, .f32⟩
  | .local _ .vmem, ⟨10, _⟩ => ⟨S128, .f32⟩
  | .local _ .vmem, ⟨11, _⟩ => ⟨S128x2048, .bf16⟩
  | .local _ .vmem, ⟨12, _⟩ => ⟨S128x2048, .bf16⟩
  | .local _ .vmem, ⟨13, _⟩ => ⟨S2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4x4096x2048_S16384x2048 : S4x4096x2048.ShapeCasts S16384x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  shapeCasts_S16384x2048_S4x4096x2048 : S16384x2048.ShapeCasts S4x4096x2048
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x5504.size a
  hwx0_2 : ∀ i : grid0.Coords, EltTy.bits .bf16 = 32 ∨ (Rect.block (s := S2048x5504) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S5504.size a
  hwx0_3 : ∀ i : grid0.Coords, EltTy.bits .f32 = 32 ∨ (Rect.block (s := S5504) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x5504.size a
  hwx0_4 : ∀ i : grid0.Coords, EltTy.bits .bf16 = 32 ∨ (Rect.block (s := S2048x5504) S2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S5504.size a
  hwx0_5 : ∀ i : grid0.Coords, EltTy.bits .f32 = 32 ∨ (Rect.block (s := S5504) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S5504x2048.size a
  hwx0_6 : ∀ i : grid0.Coords, EltTy.bits .bf16 = 32 ∨ (Rect.block (s := S5504x2048) S128x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S16384x2048.size a
  hwx0_8 : ∀ i : grid0.Coords, EltTy.bits .f32 = 32 ∨ (Rect.block (s := S16384x2048) S512x2048.size (cc0_transform_8 i) (hinb0_8 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096 : Shape := ⟨2, ![4, 4096]⟩
abbrev S2048 : Shape := ⟨1, ![2048]⟩
abbrev S2048x5504 : Shape := ⟨2, ![2048, 5504]⟩
abbrev S5504 : Shape := ⟨1, ![5504]⟩
abbrev S5504x2048 : Shape := ⟨2, ![5504, 2048]⟩
abbrev S_ : Shape := ⟨0, ![]⟩
abbrev S4x4096x1 : Shape := ⟨3, ![4, 4096, 1]⟩
abbrev S1x1x2048 : Shape := ⟨3, ![1, 1, 2048]⟩
abbrev S4x4096x5504 : Shape := ⟨3, ![4, 4096, 5504]⟩
abbrev S1x1x5504 : Shape := ⟨3, ![1, 1, 5504]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i1⟩
  | .hbm, ⟨2, _⟩ => ⟨S2048, .f32⟩
  | .hbm, ⟨3, _⟩ => ⟨S2048x5504, .f32⟩
  | .hbm, ⟨4, _⟩ => ⟨S5504, .f32⟩
  | .hbm, ⟨5, _⟩ => ⟨S2048x5504, .f32⟩
  | .hbm, ⟨6, _⟩ => ⟨S5504, .f32⟩
  | .hbm, ⟨7, _⟩ => ⟨S5504x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x4096x5504, .f32⟩
  | .hbm, ⟨26, _⟩ => ⟨S1x1x5504, .f32⟩
  | .hbm, ⟨27, _⟩ => ⟨S4x4096x5504, .f32⟩
  | .hbm, ⟨28, _⟩ => ⟨S4x4096x5504, .f32⟩
  | .hbm, ⟨29, _⟩ => ⟨S4x4096x5504, .f32⟩
  | .hbm, ⟨30, _⟩ => ⟨S4x4096x5504, .f32⟩
  | .hbm, ⟨31, _⟩ => ⟨S_, .f32⟩
  | .hbm, ⟨32, _⟩ => ⟨S4x4096x5504, .f32⟩
  | .hbm, ⟨33, _⟩ => ⟨S4x4096x5504, .f32⟩
  | .hbm, ⟨34, _⟩ => ⟨S_, .f32⟩
  | .hbm, ⟨35, _⟩ => ⟨S4x4096x5504, .f32⟩
  | .hbm, ⟨36, _⟩ => ⟨S4x4096x5504, .f32⟩
  | .hbm, ⟨37, _⟩ => ⟨S4x4096x5504, .f32⟩
  | .hbm, ⟨38, _⟩ => ⟨S4x4096x5504, .f32⟩
  | .hbm, ⟨39, _⟩ => ⟨S1x1x5504, .f32⟩
  | .hbm, ⟨40, _⟩ => ⟨S4x4096x5504, .f32⟩
  | .hbm, ⟨41, _⟩ => ⟨S4x4096x5504, .f32⟩
  | .hbm, ⟨42, _⟩ => ⟨S4x4096x5504, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x1, .i1⟩
  | .hbm, ⟨48, _⟩ => ⟨S4x4096x1, .f32⟩
  | .hbm, ⟨49, _⟩ => ⟨S4x4096x2048, .f32⟩
  | .hbm, ⟨50, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S5504_S1x1x5504_2 : S5504.BroadcastsInDim S1x1x5504 (![2] : Fin 1 → Fin S1x1x5504.rank)
  bcast_S1x1x5504_S4x4096x5504_0_1_2 : S1x1x5504.BroadcastsInDim S4x4096x5504 (![0, 1, 2] : Fin 3 → Fin S4x4096x5504.rank)
  bcast_S_S4x4096x5504 : S_.BroadcastsInDim S4x4096x5504 (![] : Fin 0 → Fin S4x4096x5504.rank)
  dot_S4x4096x2048_S2048x5504_S4x4096x5504_2_0_01_1_n_n_wf : DotDims.WF S4x4096x2048 S2048x5504 S4x4096x5504 [2] [0] [0, 1] [1] [] []
  dot_S4x4096x5504_S5504x2048_S4x4096x2048_2_0_01_1_n_n_wf : DotDims.WF S4x4096x5504 S5504x2048 S4x4096x2048 [2] [0] [0, 1] [1] [] []

variable [Facts₀]

def dot_S4x4096x2048_S2048x5504_S4x4096x5504_2_0_01_1_n_n : DotDims S4x4096x2048 S2048x5504 S4x4096x5504 where
  lhsContracting := [2]
  rhsContracting := [0]
  lhsNonContracting := [0, 1]
  rhsNonContracting := [1]
  lhsBatch := []
  rhsBatch := []
  wf := dot_S4x4096x2048_S2048x5504_S4x4096x5504_2_0_01_1_n_n_wf
def dot_S4x4096x5504_S5504x2048_S4x4096x2048_2_0_01_1_n_n : DotDims S4x4096x5504 S5504x2048 S4x4096x2048 where
  lhsContracting := [2]
  rhsContracting := [0]
  lhsNonContracting := [0, 1]
  rhsNonContracting := [1]
  lhsBatch := []
  rhsBatch := []
  wf := dot_S4x4096x5504_S5504x2048_S4x4096x2048_2_0_01_1_n_n_wf

class Facts : Prop extends Facts₀ where

variable [Facts]
-- ==== Proof.Pieces.lean ====
/-
  What one run of the kernel body leaves behind, as pure terms of what it loaded.

  The body keeps a running block in a scratch buffer. At the first tile of a row block it stores the zero block there and
  reads it back; at every tile it adds, to what the scratch holds, the product of the gated block with the tile of the last
  layer's weights, stores the sum, reads it back, adds the bias row and stores that in the output block. So after a run the
  scratch holds "previous contents (or zero) plus this tile's product", and the output block holds that plus the bias.
-/
import proofs.«143900_j17162689315242_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later tile: the scratch ends at what it held plus this tile's product. -/
theorem scratch_B (c : Dev nD) (i : grid0.Coords) (arg2 : Memref sig .tc .vmem S512x2048 .f32) (harg2 : arg2.IsWhole) (arg3 : Memref sig .tc .vmem S2048 .f32) (harg3 : arg3.IsWhole) (arg4 : Memref sig .tc .vmem S2048x128 .bf16) (harg4 : arg4.IsWhole) (arg5 : Memref sig .tc .vmem S128 .f32) (harg5 : arg5.IsWhole) (arg6 : Memref sig .tc .vmem S2048x128 .bf16) (harg6 : arg6.IsWhole) (arg7 : Memref sig .tc .vmem S128 .f32) (harg7 : arg7.IsWhole) (arg8 : Memref sig .tc .vmem S128x2048 .bf16) (harg8 : arg8.IsWhole) (arg9 : Memref sig .tc .vmem S2048 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i)
    (x0 : Vec F S512x2048 .f32) (x1 : Vec F S2048 .f32) (x2 : Vec F S2048x128 .bf16) (x3 : Vec F S128 .f32) (x4 : Vec F S2048x128 .bf16) (x5 : Vec F S128 .f32) (x6 : Vec F S128x2048 .bf16) (x7 : Vec F S2048 .f32) (xs0 : Vec F S512x2048 .f32) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 = k0_pay1 (k0_pay4 x0 x1 x2 x4 x3 x5) x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg11.read_unread, View.ld_unit_zero (S := S512x2048) hz,
    View.ld_unit_zero (S := S2048) hz1, View.ld_unit_zero (S := S2048x128) hz, View.ld_unit_zero (S := S128) hz1,
    View.ld_unit_zero (S := S128x2048) hz]

/-- A later tile: the output block ends at the new scratch contents plus the bias row. -/
theorem out_B (c : Dev nD) (i : grid0.Coords) (arg2 : Memref sig .tc .vmem S512x2048 .f32) (harg2 : arg2.IsWhole) (arg3 : Memref sig .tc .vmem S2048 .f32) (harg3 : arg3.IsWhole) (arg4 : Memref sig .tc .vmem S2048x128 .bf16) (harg4 : arg4.IsWhole) (arg5 : Memref sig .tc .vmem S128 .f32) (harg5 : arg5.IsWhole) (arg6 : Memref sig .tc .vmem S2048x128 .bf16) (harg6 : arg6.IsWhole) (arg7 : Memref sig .tc .vmem S128 .f32) (harg7 : arg7.IsWhole) (arg8 : Memref sig .tc .vmem S128x2048 .bf16) (harg8 : arg8.IsWhole) (arg9 : Memref sig .tc .vmem S2048 .f32) (harg9 : arg9.IsWhole) (arg10 : Memref sig .tc .vmem S512x2048 .f32) (harg10 : arg10.IsWhole) (arg11 : Memref sig .tc .vmem S512x2048 .f32) (harg11 : arg11.IsWhole) (hc0 : ¬cond0_0 i)
    (x0 : Vec F S512x2048 .f32) (x1 : Vec F S2048 .f32) (x2 : Vec F S2048x128 .bf16) (x3 : Vec F S128 .f32) (x4 : Vec F S2048x128 .bf16) (x5 : Vec F S128 .f32) (x6 : Vec F S128x2048 .bf16) (x7 : Vec F S2048 .f32) (xs0 : Vec F S512x2048 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = k0_pay2 (k0_pay1 (k0_pay4 x0 x1 x2 x4 x3 x5) x6 xs0) x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg11.read_unread, View.readCov_unit_zero (S := S512x2048) _ hz,
    View.ld_unit_zero (S := S512x2048) hz,
    View.ld_unit_zero (S := S2048) hz1, View.ld_unit_zero (S := S2048x128) hz, View.ld_unit_zero (S := S128) hz1,
    View.ld_unit_zero (S := S128x2048) hz]

/-- The first tile: the scratch ends at the zero block plus this tile's product. -/
theorem scratch_A (c : Dev nD) (i : grid0.Coords) (arg2 : Memref sig .tc .vmem S512x2048 .f32) (harg2 : arg2.IsWhole) (arg3 : Memref sig .tc .vmem S2048 .f32) (harg3 : arg3.IsWhole) (arg4 : Memref sig .tc .vmem S2048x128 .bf16) (harg4 : arg4.IsWhole) (arg5 : Memref sig .tc .vmem S128 .f32) (harg5 : arg5.IsWhole) (arg6 : Memref sig .tc .vmem S2048x128 .bf16) (harg6 : arg6.IsWhole) (arg7 : Memref sig .tc .vmem S128 .f32) (harg7 : arg7.IsWhole) (arg8 : Memref sig .tc .vmem S128x2048 .bf16) (harg8 : arg8.IsWhole) (arg9 : Memref sig .tc .vmem S2048 .f32) (harg9 : arg9.IsWhole) (arg10 : Memref sig .tc .vmem S512x2048 .f32) (harg10 : arg10.IsWhole) (arg11 : Memref sig .tc .vmem S512x2048 .f32) (harg11 : arg11.IsWhole) (hc0 : cond0_0 i)
    (x0 : Vec F S512x2048 .f32) (x1 : Vec F S2048 .f32) (x2 : Vec F S2048x128 .bf16) (x3 : Vec F S128 .f32) (x4 : Vec F S2048x128 .bf16) (x5 : Vec F S128 .f32) (x6 : Vec F S128x2048 .bf16) (x7 : Vec F S2048 .f32) :
    sout0_A_0 c i arg2 harg2 arg3 harg3 arg4 harg4 arg5 harg5 arg6 harg6 arg7 harg7 arg8 harg8 arg9 harg9 arg10 harg10 arg11 harg11 hc0 x0 x1 x2 x3 x4 x5 x6 x7 = k0_pay1 (k0_pay4 x0 x1 x2 x4 x3 x5) x6 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread,
    harg7.read_unread, harg8.read_unread, View.ld_unit_zero (S := S512x2048) hz,
    View.ld_unit_zero (S := S2048) hz1, View.ld_unit_zero (S := S2048x128) hz, View.ld_unit_zero (S := S128) hz1,
    View.ld_unit_zero (S := S128x2048) hz]

end Cert.KernelIdeal.Pieces

end
-- ==== Proof.Blocks.lean ====
/-
  Where each block of the kernel's windows sits in its array, and what the arrays are when the kernel starts.

  The grid has 32 × 43 points; point t works on row block t / 43 (512 token rows) and column tile t % 43 (128 of the 5504
  hidden columns). The token rows and the output are cut in row blocks, the two first-layer weight matrices and their
  biases in column tiles, the last-layer weights in row tiles; the two vectors of 2048 entries are read whole. Before the
  kernel starts the host only relays out the token rows as one [16384, 2048] array (row b·4096 + l is token (b, l)) and
  changes the format of the three weight matrices, which on the extended reals changes nothing.
-/
import proofs.«143900_j17162689315242_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block index of every window at every point, decided over the grid: row block `t / 43`, column tile `t % 43`. -/
theorem idx_facts : ∀ t : Fin cfg0.N,
    win0_0.index t (0 : Fin 2) = t.val / 43 ∧ win0_0.index t (1 : Fin 2) = 0
    ∧ win0_1.index t (0 : Fin 1) = 0
    ∧ win0_2.index t (0 : Fin 2) = 0 ∧ win0_2.index t (1 : Fin 2) = t.val % 43
    ∧ win0_3.index t (0 : Fin 1) = t.val % 43
    ∧ win0_4.index t (0 : Fin 2) = 0 ∧ win0_4.index t (1 : Fin 2) = t.val % 43
    ∧ win0_5.index t (0 : Fin 1) = t.val % 43
    ∧ win0_6.index t (0 : Fin 2) = t.val % 43 ∧ win0_6.index t (1 : Fin 2) = 0
    ∧ win0_7.index t (0 : Fin 1) = 0
    ∧ win0_8.index t (0 : Fin 2) = t.val / 43 ∧ win0_8.index t (1 : Fin 2) = 0 :=
  (by decide +kernel : ∀ t : Fin grid0.N, _)

/-! ## The arrays as the kernel finds them, and the blocks, at their literal types -/

abbrev Xa (c : Dev nD) : Vec F S16384x2048 .f32 := V m c main_v0
abbrev Lw (c : Dev nD) : Vec F S2048 .f32 := V m c main_arg2
abbrev Gw (c : Dev nD) : Vec F S2048x5504 .bf16 := V m c main_v1
abbrev Gb (c : Dev nD) : Vec F S5504 .f32 := V m c main_arg4
abbrev Uw (c : Dev nD) : Vec F S2048x5504 .bf16 := V m c main_v2
abbrev Ub (c : Dev nD) : Vec F S5504 .f32 := V m c main_arg6
abbrev Dw (c : Dev nD) : Vec F S5504x2048 .bf16 := V m c main_v3
abbrev Db (c : Dev nD) : Vec F S2048 .f32 := V m c main_arg8

abbrev xblk (c : Dev nD) (t : Fin cfg0.N) : Vec F S512x2048 .f32 := iblk m c 0 t
abbrev lwblk (c : Dev nD) (t : Fin cfg0.N) : Vec F S2048 .f32 := iblk m c 1 t
abbrev gwblk (c : Dev nD) (t : Fin cfg0.N) : Vec F S2048x128 .bf16 := iblk m c 2 t
abbrev gbblk (c : Dev nD) (t : Fin cfg0.N) : Vec F S128 .f32 := iblk m c 3 t
abbrev uwblk (c : Dev nD) (t : Fin cfg0.N) : Vec F S2048x128 .bf16 := iblk m c 4 t
abbrev ubblk (c : Dev nD) (t : Fin cfg0.N) : Vec F S128 .f32 := iblk m c 5 t
abbrev dwblk (c : Dev nD) (t : Fin cfg0.N) : Vec F S128x2048 .bf16 := iblk m c 6 t
abbrev dbblk (c : Dev nD) (t : Fin cfg0.N) : Vec F S2048 .f32 := iblk m c 7 t

/-! ## Each block read at an index -/

/-- Row `r` of the token block at point `t` is row `(t / 43)·512 + r` of the token array. -/
theorem xblk_at (c : Dev nD) (t : Fin cfg0.N) (r : Fin 512) (k : Fin 2048) (R : Fin 16384) (hR : R.val = t.val / 43 * 512 + r.val) :
    xblk m c t (ix2 r k) = Xa m c (ix2 R k) := by
  obtain ⟨e0, e1, -⟩ := idx_facts t
  unfold xblk iblk
  rw [View.read_apply]
  show V m c main_v0 _ = V m c main_v0 _
  congr 1
  funext a
  apply Fin.ext
  match a with
  | ⟨0, _⟩ => show win0_0.index t 0 * 512 + 1 * r.val = R.val; rw [e0, hR]; omega
  | ⟨1, _⟩ => show win0_0.index t 1 * 2048 + 1 * k.val = k.val; rw [e1]; omega

/-- The scaling weights are read whole. -/
theorem lwblk_at (c : Dev nD) (t : Fin cfg0.N) (k : Fin 2048) : lwblk m c t (ix1 k) = Lw m c (ix1 k) := by
  obtain ⟨-, -, e2, -⟩ := idx_facts t
  unfold lwblk iblk
  rw [View.read_apply]
  show V m c main_arg2 _ = V m c main_arg2 _
  congr 1
  funext a
  apply Fin.ext
  match a with
  | ⟨0, _⟩ => show win0_1.index t 0 * 2048 + 1 * k.val = k.val; rw [e2]; omega

/-- Column `j` of the gate-weight tile at point `t` is column `(t % 43)·128 + j` of the gate weights. -/
theorem gwblk_at (c : Dev nD) (t : Fin cfg0.N) (k : Fin 2048) (j : Fin 128) (J : Fin 5504) (hJ : J.val = t.val % 43 * 128 + j.val) :
    gwblk m c t (ix2 k j) = Gw m c (ix2 k J) := by
  obtain ⟨-, -, -, e3, e4, -⟩ := idx_facts t
  unfold gwblk iblk
  rw [View.read_apply]
  show V m c main_v1 _ = V m c main_v1 _
  congr 1
  funext a
  apply Fin.ext
  match a with
  | ⟨0, _⟩ => show win0_2.index t 0 * 2048 + 1 * k.val = k.val; rw [e3]; omega
  | ⟨1, _⟩ => show win0_2.index t 1 * 128 + 1 * j.val = J.val; rw [e4, hJ]; omega

theorem gbblk_at (c : Dev nD) (t : Fin cfg0.N) (j : Fin 128) (J : Fin 5504) (hJ : J.val = t.val % 43 * 128 + j.val) :
    gbblk m c t (ix1 j) = Gb m c (ix1 J) := by
  obtain ⟨-, -, -, -, -, e5, -⟩ := idx_facts t
  unfold gbblk iblk
  rw [View.read_apply]
  show V m c main_arg4 _ = V m c main_arg4 _
  congr 1
  funext a
  apply Fin.ext
  match a with
  | ⟨0, _⟩ => show win0_3.index t 0 * 128 + 1 * j.val = J.val; rw [e5, hJ]; omega

theorem uwblk_at (c : Dev nD) (t : Fin cfg0.N) (k : Fin 2048) (j : Fin 128) (J : Fin 5504) (hJ : J.val = t.val % 43 * 128 + j.val) :
    uwblk m c t (ix2 k j) = Uw m c (ix2 k J) := by
  obtain ⟨-, -, -, -, -, -, e6, e7, -⟩ := idx_facts t
  unfold uwblk iblk
  rw [View.read_apply]
  show V m c main_v2 _ = V m c main_v2 _
  congr 1
  funext a
  apply Fin.ext
  match a with
  | ⟨0, _⟩ => show win0_4.index t 0 * 2048 + 1 * k.val = k.val; rw [e6]; omega
  | ⟨1, _⟩ => show win0_4.index t 1 * 128 + 1 * j.val = J.val; rw [e7, hJ]; omega

theorem ubblk_at (c : Dev nD) (t : Fin cfg0.N) (j : Fin 128) (J : Fin 5504) (hJ : J.val = t.val % 43 * 128 + j.val) :
    ubblk m c t (ix1 j) = Ub m c (ix1 J) := by
  obtain ⟨-, -, -, -, -, -, -, -, e8, -⟩ := idx_facts t
  unfold ubblk iblk
  rw [View.read_apply]
  show V m c main_arg6 _ = V m c main_arg6 _
  congr 1
  funext a
  apply Fin.ext
  match a with
  | ⟨0, _⟩ => show win0_5.index t 0 * 128 + 1 * j.val = J.val; rw [e8, hJ]; omega

/-- Row `j` of the last-layer weight tile at point `t` is row `(t % 43)·128 + j` of the last-layer weights. -/
theorem dwblk_at (c : Dev nD) (t : Fin cfg0.N) (j : Fin 128) (h : Fin 2048) (J : Fin 5504) (hJ : J.val = t.val % 43 * 128 + j.val) :
    dwblk m c t (ix2 j h) = Dw m c (ix2 J h) := by
  obtain ⟨-, -, -, -, -, -, -, -, -, e9, e10, -⟩ := idx_facts t
  unfold dwblk iblk
  rw [View.read_apply]
  show V m c main_v3 _ = V m c main_v3 _
  congr 1
  funext a
  apply Fin.ext
  match a with
  | ⟨0, _⟩ => show win0_6.index t 0 * 128 + 1 * j.val = J.val; rw [e9, hJ]; omega
  | ⟨1, _⟩ => show win0_6.index t 1 * 2048 + 1 * h.val = h.val; rw [e10]; omega

/-- The last bias is read whole. -/
theorem dbblk_at (c : Dev nD) (t : Fin cfg0.N) (h : Fin 2048) : dbblk m c t (ix1 h) = Db m c (ix1 h) := by
  obtain ⟨-, -, -, -, -, -, -, -, -, -, -, e11, -⟩ := idx_facts t
  unfold dbblk iblk
  rw [View.read_apply]
  show V m c main_arg8 _ = V m c main_arg8 _
  congr 1
  funext a
  apply Fin.ext
  match a with
  | ⟨0, _⟩ => show win0_7.index t 0 * 2048 + 1 * h.val = h.val; rw [e11]; omega

end Cert.KernelIdeal.Blocks

end
-- ==== Proof.MlpSpec.lean ====
/-
  The mathematics of the certificate, on the extended reals, row by row.

  A token row x (2048 entries) is scaled by the inverse root of its mean square plus a small constant and by a weight
  vector; the scaled row h goes through two affine layers of 5504 columns (h·Wg + bg and h·Wu + bu); the first is passed
  through s ↦ s · logistic s and multiplied entrywise with the second; the product row a goes through a third affine layer
  a·Wd + bd of 2048 columns. One side computes the last layer in one sum over the 5504 columns, the other in 43 tiles of
  128 columns added one after the other into an accumulator that starts at zero. Sums of extended reals may be regrouped
  freely (addition is commutative and associative, infinities included), so the two agree with no finiteness assumption.
-/
import Idealize.ShloMosaic.PureOps.Ideal
import Idealize.ShloMosaic.PureOps.Ideal.Laws
import Idealize.ShloMosaic.Lib.ValueIdx
import Mathlib.Algebra.BigOperators.Fin
import Mathlib.Order.Interval.Finset.Fin

noncomputable section

open scoped BigOperators

namespace Cert.MlpSpec

open Idealize.ShloMosaic Idealize.ShloMosaic.ValueIdx

/-! ## The constants both programs spell -/

/-- The word of `1.0` denotes `1`. -/
theorem ofBits_one : Ideal.ofBits .f32 0x3F800000#32 = 1 := by
  simp [Ideal.ofBits, Ideal.ieee, -EReal.coe_mul]; norm_num

/-- The word of `+0.0` denotes `0`. -/
theorem ofBits_zero : Ideal.ofBits .f32 0x00000000#32 = 0 := Ideal.ofBits_zero_f32

/-! ## One row -/

/-- The inverse root of the row's mean square plus the small constant (the divisor `2048.0` and the constant are kept as
    the words both programs print). -/
def rstd (xr : Fin 2048 → EReal) : EReal :=
  Ideal.rsqrt (Ideal.div (∑ k : Fin 2048, xr k * xr k) (Ideal.ofBits .f32 0x45000000#32) + Ideal.ofBits .f32 0x358637BD#32)

/-- The scaled row. -/
def hn (xr lnw : Fin 2048 → EReal) (k : Fin 2048) : EReal := xr k * rstd xr * lnw k

/-- An affine layer of `n` columns read at column `j`: the row against column `j` of the weights, plus the bias there. -/
def lin {n : Nat} (h : Fin 2048 → EReal) (W : Fin 2048 → Fin n → EReal) (b : Fin n → EReal) (j : Fin n) : EReal :=
  (∑ k : Fin 2048, h k * W k j) + b j

/-- The gated product at column `j`: `s · logistic s · u` with `s`, `u` the two affine layers of the scaled row. -/
def gated {n : Nat} (xr lnw : Fin 2048 → EReal) (gw : Fin 2048 → Fin n → EReal) (gb : Fin n → EReal)
    (uw : Fin 2048 → Fin n → EReal) (ub : Fin n → EReal) (j : Fin n) : EReal :=
  lin (hn xr lnw) gw gb j * Ideal.logistic (lin (hn xr lnw) gw gb j) * lin (hn xr lnw) uw ub j

/-- Column `j` of tile `ii` among the 5504 columns. -/
def tileCol (ii : Fin 43) (j : Fin 128) : Fin 5504 := ⟨ii.val * 128 + j.val, by have := ii.isLt; have := j.isLt; omega⟩

/-- The gated product restricted to a tile's 128 columns is the gated product over all columns read in that tile. -/
theorem gated_tile (xr lnw : Fin 2048 → EReal) (gw : Fin 2048 → Fin 5504 → EReal) (gb : Fin 5504 → EReal)
    (uw : Fin 2048 → Fin 5504 → EReal) (ub : Fin 5504 → EReal) (ii : Fin 43) (j : Fin 128) :
    gated xr lnw (fun k j => gw k (tileCol ii j)) (fun j => gb (tileCol ii j)) (fun k j => uw k (tileCol ii j))
      (fun j => ub (tileCol ii j)) j = gated xr lnw gw gb uw ub (tileCol ii j) := rfl

/-- One tile's share of the last layer at output column `h`. -/
def partialDown (a : Fin 5504 → EReal) (dw : Fin 5504 → Fin 2048 → EReal) (ii : Fin 43) (h : Fin 2048) : EReal :=
  ∑ j : Fin 128, a (tileCol ii j) * dw (tileCol ii j) h

/-- The last layer at output column `h`, in one sum. -/
def down (a : Fin 5504 → EReal) (dw : Fin 5504 → Fin 2048 → EReal) (db : Fin 2048 → EReal) (h : Fin 2048) : EReal :=
  (∑ j : Fin 5504, a j * dw j h) + db h

/-- What the accumulator holds after tiles `0 … ii`. -/
def accUpTo (a : Fin 5504 → EReal) (dw : Fin 5504 → Fin 2048 → EReal) (ii : Fin 43) (h : Fin 2048) : EReal :=
  ∑ i' ∈ Finset.Iic ii, partialDown a dw i' h

/-! ## Sums by tiles -/

/-- A sum over the 5504 columns, taken as 43 tiles of 128. -/
theorem sum_tiles {M : Type*} [AddCommMonoid M] (f : Fin 5504 → M) :
    ∑ j : Fin 5504, f j = ∑ ii : Fin 43, ∑ j : Fin 128, f (tileCol ii j) := by
  rw [← Equiv.sum_comp (finProdFinEquiv : Fin 43 × Fin 128 ≃ Fin (43 * 128)) (fun q => f q), Fintype.sum_prod_type]
  refine Finset.sum_congr rfl fun ii _ => Finset.sum_congr rfl fun j _ => ?_
  refine congrArg f (Fin.ext ?_)
  show j.val + 128 * ii.val = ii.val * 128 + j.val
  omega

/-- The first tile alone. -/
theorem accUpTo_zero (a : Fin 5504 → EReal) (dw : Fin 5504 → Fin 2048 → EReal) (ii : Fin 43) (hii : ii.val = 0) (h : Fin 2048) :
    accUpTo a dw ii h = partialDown a dw ii h := by
  unfold accUpTo
  have : Finset.Iic ii = {ii} := by
    ext x; simp only [Finset.mem_Iic, Finset.mem_singleton, Fin.le_def, Fin.ext_iff]; omega
  rw [this, Finset.sum_singleton]

/-- One more tile: the accumulator after tile `ii` is the accumulator after the tile before it plus tile `ii`'s share. -/
theorem accUpTo_succ (a : Fin 5504 → EReal) (dw : Fin 5504 → Fin 2048 → EReal) (ip ii : Fin 43) (hs : ii.val = ip.val + 1)
    (h : Fin 2048) : accUpTo a dw ii h = accUpTo a dw ip h + partialDown a dw ii h := by
  unfold accUpTo
  have hins : Finset.Iic ii = insert ii (Finset.Iic ip) := by
    ext x; simp only [Finset.mem_Iic, Finset.mem_insert, Fin.le_def, Fin.ext_iff]; omega
  have hnot : ii ∉ Finset.Iic ip := by
    simp only [Finset.mem_Iic, Fin.le_def]; omega
  rw [hins, Finset.sum_insert hnot, add_comm]

/-- After the last tile the accumulator plus the bias is the last layer in one sum. -/
theorem accUpTo_last (a : Fin 5504 → EReal) (dw : Fin 5504 → Fin 2048 → EReal) (db : Fin 2048 → EReal) (ii : Fin 43)
    (hii : ii.val = 42) (h : Fin 2048) : accUpTo a dw ii h + db h = down a dw db h := by
  unfold accUpTo down partialDown
  have : Finset.Iic ii = Finset.univ := by
    ext x; simp only [Finset.mem_Iic, Finset.mem_univ, Fin.le_def, iff_true]; have := x.isLt; omega
  rw [this, sum_tiles (fun j => a j * dw j h)]

/-! ## The whole result, before the mask -/

/-- The result before the mask over the [4, 4096, 2048] layout: entry (b, l, h) is the last layer at column `h` of the
    gated product of token row (b, l). -/
def out3 (x0 : (⟨3, ![4, 4096, 2048]⟩ : Shape).Idx → EReal) (x2 : (⟨1, ![2048]⟩ : Shape).Idx → EReal)
    (x3 : (⟨2, ![2048, 5504]⟩ : Shape).Idx → EReal) (x4 : (⟨1, ![5504]⟩ : Shape).Idx → EReal)
    (x5 : (⟨2, ![2048, 5504]⟩ : Shape).Idx → EReal) (x6 : (⟨1, ![5504]⟩ : Shape).Idx → EReal)
    (x7 : (⟨2, ![5504, 2048]⟩ : Shape).Idx → EReal) (x8 : (⟨1, ![2048]⟩ : Shape).Idx → EReal) :
    (⟨3, ![4, 4096, 2048]⟩ : Shape).Idx → EReal :=
  fun i => down (gated (fun k => x0 (ix3 (i 0) (i 1) k)) (fun k => x2 (ix1 k)) (fun k j => x3 (ix2 k j)) (fun j => x4 (ix1 j))
    (fun k j => x5 (ix2 k j)) (fun j => x6 (ix1 j))) (fun j h => x7 (ix2 j h)) (fun h => x8 (ix1 h)) (i 2)

/-- The same over the flat [16384, 2048] layout of the token rows. -/
def out2 (X : (⟨2, ![16384, 2048]⟩ : Shape).Idx → EReal) (x2 : (⟨1, ![2048]⟩ : Shape).Idx → EReal)
    (x3 : (⟨2, ![2048, 5504]⟩ : Shape).Idx → EReal) (x4 : (⟨1, ![5504]⟩ : Shape).Idx → EReal)
    (x5 : (⟨2, ![2048, 5504]⟩ : Shape).Idx → EReal) (x6 : (⟨1, ![5504]⟩ : Shape).Idx → EReal)
    (x7 : (⟨2, ![5504, 2048]⟩ : Shape).Idx → EReal) (x8 : (⟨1, ![2048]⟩ : Shape).Idx → EReal) :
    (⟨2, ![16384, 2048]⟩ : Shape).Idx → EReal :=
  fun j => down (gated (fun k => X (ix2 (j 0) k)) (fun k => x2 (ix1 k)) (fun k j => x3 (ix2 k j)) (fun j => x4 (ix1 j))
    (fun k j => x5 (ix2 k j)) (fun j => x6 (ix1 j))) (fun j h => x7 (ix2 j h)) (fun h => x8 (ix1 h)) (j 1)

end Cert.MlpSpec

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Payloads.lean ====
/-
  The kernel body's four pure values, read one entry at a time on the extended reals.

  One grid step holds a block of 512 token rows and one tile of 128 of the 5504 hidden columns. The first value is the
  gated product of the block against the tile: each row x is scaled by the inverse root of (mean of x² plus a small
  constant) and by the weight vector, the scaled row goes through the two affine layers restricted to the tile's columns,
  and the entry is s · logistic s · u. The second adds to the accumulator the block of gated products against the tile's
  rows of the last layer's weights, a sum over the tile's 128 columns. The third adds the last layer's bias, read at the
  column. The fourth is the zero the accumulator starts from. A change of format is the identity on extended reals, a
  cast to the same shape is the identity, and a product of the plain "rows by columns" kind into a zero accumulator is,
  at (p, q), row p against column q.
-/
import proofs.«143900_j17162689315242_1_alg».proof.Proof.Gen.KernelIdeal.Skeleton
import proofs.«143900_j17162689315242_1_alg».proof.Proof.MlpSpec
import proofs.«143900_j17162689315242_1_alg».proof.Proof.LibSageSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## A column read through the layout operations -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products are plain rows-by-columns products -/

/-- The block against a tile of the first two layers' weights: the left operand's row is the result's row … -/
theorem lhs_up_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- … its column the contracted coordinate … -/
theorem lhs_up_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
/-- … the right operand's row the contracted coordinate … -/
theorem rhs_up_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
/-- … and its column the result's column. -/
theorem rhs_up_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- So it contracts the 2048 entries of a row against the 2048 entries of a column. -/
theorem plain_up : SageSpec.PlainDot dot_S512x2048_S2048x128_S512x128_1_0_0_1_n_n where
  rank := rfl
  size := fun _ => rfl
  l0 := lhs_up_0
  l1 := fun i q _ => lhs_up_1 i q
  r0 := fun i q _ => rhs_up_0 i q
  r1 := rhs_up_1

/-- The gated block against a tile's rows of the last layer's weights: the left operand's row is the result's row … -/
theorem lhs_down_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
/-- … its column the contracted coordinate … -/
theorem lhs_down_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
/-- … the right operand's row the contracted coordinate … -/
theorem rhs_down_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
/-- … and its column the result's column. -/
theorem rhs_down_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- So it contracts the tile's 128 columns. -/
theorem plain_down : SageSpec.PlainDot dot_S512x128_S128x2048_S512x2048_1_0_0_1_n_n where
  rank := rfl
  size := fun _ => rfl
  l0 := lhs_down_0
  l1 := fun i q _ => lhs_down_1 i q
  r0 := fun i q _ => rhs_down_0 i q
  r1 := rhs_down_1

/-! ## The scaled rows -/

/-- Each row's inverse root of (mean square plus the small constant), kept as a column. -/
def rstdCol (x : FVec Ideal S512x2048 .f32) : FVec Ideal S512x1 .f32 :=
  rsqrt (addf (divf (shapeCast S512x1 (multiReduction (F := Ideal) .add [1] S512 (mulf x x) 0x00000000#32 reduces_S512x2048_S512 (.inl rfl) rfl) shapeCasts_S512_S512x1)
    (broadcast S512x1 (Scalar.ofBits (F := Ideal) .f32 0x45000000#32))) (broadcast S512x1 (Scalar.ofBits (F := Ideal) .f32 0x358637BD#32)))

/-- The column at row `r` is the row's inverse root mean square. -/
theorem rstdCol_at (x : FVec Ideal S512x2048 .f32) (r : Fin 512) (u : Fin 1) :
    rstdCol x (ix2 r u) = Cert.MlpSpec.rstd (fun k => x (ix2 r k)) := by
  unfold rstdCol Cert.MlpSpec.rstd
  refine congrArg (fun s => Ideal.rsqrt (Ideal.div s (Ideal.ofBits .f32 0x45000000#32) + Ideal.ofBits .f32 0x358637BD#32)) ?_
  refine (shapeCast_a_a1_apply _ _ r u).trans ?_
  refine (Ideal.multiReduction_add_single (mulf x x) 0x00000000#32 reduces_S512x2048_S512 (.inl rfl) rfl (ix1 r)).trans ?_
  refine Finset.sum_congr rfl fun k _ => ?_
  have e : reduces_S512x2048_S512.lift (ix1 r) k = ix2 r k := funext fun a => Fin.ext (by
    match a with
    | ⟨0, _⟩ => rfl
    | ⟨1, _⟩ => rfl)
  rw [e]
  rfl

/-- The block's rows, each scaled by its inverse root mean square and by the weight vector. -/
def hrow (v3 : Vec Ideal S512x2048 .f32) (v15 : Vec Ideal S2048 .f32) : FVec Ideal S512x2048 .bf16 :=
  truncf .bf16 (mulf (mulf (shapeCast S512x2048 v3 shapeCasts_S512x2048_S512x2048)
      (broadcastTo S512x2048 (rstdCol (shapeCast S512x2048 v3 shapeCasts_S512x2048_S512x2048)) broadcasts_S512x1_S512x2048))
    (broadcastTo S512x2048 (shapeCast S1x2048 v15 shapeCasts_S2048_S1x2048) broadcasts_S1x2048_S512x2048)) bitsLt_bf16_f32

/-- Entry (r, k) of the scaled block is entry k of the scaled row r. -/
theorem hrow_at (v3 : Vec Ideal S512x2048 .f32) (v15 : Vec Ideal S2048 .f32) (r : Fin 512) (k : Fin 2048) :
    hrow v3 v15 (ix2 r k) = Cert.MlpSpec.hn (fun k => v3 (ix2 r k)) (fun k => v15 (ix1 k)) k := by
  unfold hrow Cert.MlpSpec.hn
  rw [shapeCast_self]
  refine (truncf_apply (ψ := .bf16) _ bitsLt_bf16_f32 _).trans ?_
  refine (mulf_apply _ _ _).trans ?_
  refine congrArg₂ (· * ·) ?_ ?_
  · refine (mulf_apply _ _ _).trans ?_
    refine congrArg (v3 (ix2 r k) * ·) ?_
    exact (broadcastTo_a1_ab_apply _ _ r k).trans (rstdCol_at v3 r 0)
  · exact (broadcastTo_1b_ab_apply _ _ r k).trans (shapeCast_a_1a_apply v15 _ 0 k)

/-! ## One affine layer against a tile -/

/-- The block `h` against a tile `w` of a layer's weights plus the tile's bias `b`, at (r, j): row r against column j,
    plus the bias at j. -/
theorem lin_at (h : FVec Ideal S512x2048 .bf16) (w : Vec Ideal S2048x128 .bf16) (b : Vec Ideal S128 .f32) (r : Fin 512) (j : Fin 128) :
    addf (matmul (φ₁ := .bf16) (φ₂ := .bf16) dot_S512x2048_S2048x128_S512x128_1_0_0_1_n_n none h (shapeCast S2048x128 w shapeCasts_S2048x128_S2048x128) (constant (F := Ideal) S512x128 .f32 0x00000000#32))
        (broadcastTo S512x128 (shapeCast S1x128 b shapeCasts_S128_S1x128) broadcasts_S1x128_S512x128) (ix2 r j)
      = (∑ k : Fin 2048, h (ix2 r k) * w (ix2 k j)) + b (ix1 j) := by
  rw [shapeCast_self]
  refine (addf_apply _ _ _).trans ?_
  refine congrArg₂ (· + ·) ?_ ?_
  · exact SageSpec.matmul_zero_at plain_up none h w (ix2 r j)
  · exact (broadcastTo_1b_ab_apply _ _ r j).trans (shapeCast_a_1a_apply b _ 0 j)

/-! ## The four values -/

/-- The gated product of a scaled block against a tile. -/
def gatedOf (v19 : FVec Ideal S512x2048 .bf16) (v20 v22 : Vec Ideal S2048x128 .bf16) (v25 v30 : Vec Ideal S128 .f32) :
    FVec Ideal S512x128 .bf16 :=
  have v28 : FVec Ideal S512x128 .f32 :=
    addf (matmul (φ₁ := .bf16) (φ₂ := .bf16) dot_S512x2048_S2048x128_S512x128_1_0_0_1_n_n none v19 (shapeCast S2048x128 v20 shapeCasts_S2048x128_S2048x128) (constant (F := Ideal) S512x128 .f32 0x00000000#32))
      (broadcastTo S512x128 (shapeCast S1x128 v25 shapeCasts_S128_S1x128) broadcasts_S1x128_S512x128)
  have v33 : FVec Ideal S512x128 .f32 :=
    addf (matmul (φ₁ := .bf16) (φ₂ := .bf16) dot_S512x2048_S2048x128_S512x128_1_0_0_1_n_n none v19 (shapeCast S2048x128 v22 shapeCasts_S2048x128_S2048x128) (constant (F := Ideal) S512x128 .f32 0x00000000#32))
      (broadcastTo S512x128 (shapeCast S1x128 v30 shapeCasts_S128_S1x128) broadcasts_S1x128_S512x128)
  truncf .bf16 (mulf (mulf v28 (logistic v28)) v33) bitsLt_bf16_f32

/-- The first value is the gated product of the scaled block. -/
theorem k0_pay4_eq (v3 : Vec Ideal S512x2048 .f32) (v15 : Vec Ideal S2048 .f32) (v20 v22 : Vec Ideal S2048x128 .bf16)
    (v25 v30 : Vec Ideal S128 .f32) :
    k0_pay4 (F := Ideal) v3 v15 v20 v22 v25 v30 = gatedOf (hrow v3 v15) v20 v22 v25 v30 := rfl

/-- The gated product of the block against the tile, at (r, j): the gated product of row r at the tile's column j. -/
theorem pay4_at (v3 : Vec Ideal S512x2048 .f32) (v15 : Vec Ideal S2048 .f32) (v20 v22 : Vec Ideal S2048x128 .bf16)
    (v25 v30 : Vec Ideal S128 .f32) (r : Fin 512) (j : Fin 128) :
    k0_pay4 (F := Ideal) v3 v15 v20 v22 v25 v30 (ix2 r j)
      = Cert.MlpSpec.gated (fun k => v3 (ix2 r k)) (fun k => v15 (ix1 k)) (fun k j => v20 (ix2 k j)) (fun j => v25 (ix1 j))
          (fun k j => v22 (ix2 k j)) (fun j => v30 (ix1 j)) j := by
  have hs := lin_at (hrow v3 v15) v20 v25 r j
  have hu := lin_at (hrow v3 v15) v22 v30 r j
  simp only [hrow_at v3 v15 r] at hs hu
  refine (congrFun (k0_pay4_eq v3 v15 v20 v22 v25 v30) (ix2 r j)).trans ?_
  unfold Cert.MlpSpec.gated Cert.MlpSpec.lin
  exact congrArg₂ (fun s u => s * Ideal.logistic s * u) hs hu

/-- The accumulator plus the gated block against the tile's rows of the last layer's weights, at (r, h): the accumulator
    there plus the sum over the tile's 128 columns. -/
theorem pay1_at (v37 : FVec Ideal S512x128 .bf16) (v38 : Vec Ideal S128x2048 .bf16) (v41 : Vec Ideal S512x2048 .f32)
    (r : Fin 512) (h : Fin 2048) :
    k0_pay1 (F := Ideal) v37 v38 v41 (ix2 r h) = v41 (ix2 r h) + ∑ j : Fin 128, v37 (ix2 r j) * v38 (ix2 j h) := by
  unfold k0_pay1
  refine (congrFun (shapeCast_self _ shapeCasts_S512x2048_S512x2048) (ix2 r h)).trans ?_
  refine (addf_apply _ _ _).trans ?_
  refine congrArg (v41 (ix2 r h) + ·) ?_
  refine (SageSpec.matmul_zero_at plain_down none v37 _ (ix2 r h)).trans ?_
  rw [shapeCast_self]
  rfl

/-- The accumulator plus the last layer's bias, at (r, h): the bias is read at the column. -/
theorem pay2_at (v46 : Vec Ideal S512x2048 .f32) (v47 : Vec Ideal S2048 .f32) (r : Fin 512) (h : Fin 2048) :
    k0_pay2 (F := Ideal) v46 v47 (ix2 r h) = v46 (ix2 r h) + v47 (ix1 h) := by
  unfold k0_pay2
  refine (addf_apply _ _ _).trans ?_
  refine congrArg (v46 (ix2 r h) + ·) ?_
  exact (broadcastTo_1b_ab_apply _ _ r h).trans (shapeCast_a_1a_apply v47 _ 0 h)

/-- The accumulator's first contents: zero everywhere. -/
theorem pay3_at (i : S512x2048.Idx) : k0_pay3 (F := Ideal) i = 0 := by
  unfold k0_pay3
  refine (congrFun (shapeCast_self _ shapeCasts_S512x2048_S512x2048) i).trans ?_
  exact Ideal.ofBits_zero_f32

end Cert.KernelIdeal.Pay

end
-- ==== Proof.Acc.lean ====
/-
  What the scratch accumulator and the output block hold after each grid point.

  Point t works on row block t / 43 and column tile t % 43. By induction on the point, after point t the scratch holds, at
  (r, h), the sum over tiles 0 … t % 43 of the tile's share of the last layer for token row (t / 43)·512 + r: the first tile
  of a row block starts from the zero block, every later tile adds its share to what the point before left. At the last
  tile (t % 43 = 42) the output block, scratch plus bias, is therefore the whole last layer for its rows.
-/
import proofs.«143900_j17162689315242_1_alg».proof.Proof.Pieces
import proofs.«143900_j17162689315242_1_alg».proof.Proof.Blocks
import proofs.«143900_j17162689315242_1_alg».proof.Proof.Payloads
import proofs.«143900_j17162689315242_1_alg».proof.Proof.MlpSpec

set_option maxRecDepth 16384

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Blocks

variable (m : (ℓ : Loc nD τ sig) → Buf (Elt Ideal) ℓ)

/-- The token row that row `r` of point `n`'s block is. -/
def rowOf (n : Nat) (hn : n < cfg0.N) (r : Fin 512) : Fin 16384 :=
  ⟨n / 43 * 512 + r.val, by have hN : cfg0.N = 1376 := N_0; have := r.isLt; omega⟩

/-- The column tile point `n` works on. -/
def tileOf (n : Nat) : Fin 43 := ⟨n % 43, Nat.mod_lt _ (by decide)⟩

/-- The gated product row of token row `R`, over the arrays as the kernel finds them. -/
def aRow (c : Dev nD) (R : Fin 16384) : Fin 5504 → EReal :=
  Cert.MlpSpec.gated (fun k => Xa m c (ix2 R k)) (fun k => Lw m c (ix1 k)) (fun k j => Gw m c (ix2 k j)) (fun j => Gb m c (ix1 j))
    (fun k j => Uw m c (ix2 k j)) (fun j => Ub m c (ix1 j))

/-- The last layer's weights, by row and column. -/
def dwF (c : Dev nD) : Fin 5504 → Fin 2048 → EReal := fun j h => Dw m c (ix2 j h)

/-- The gated block of point `t` at (r, j) is the gated product of its token row at column `j` of the point's tile. -/
theorem gu_at (c : Dev nD) (t : Fin cfg0.N) (r : Fin 512) (j : Fin 128) :
    k0_pay4 (F := Ideal) (xblk m c t) (lwblk m c t) (gwblk m c t) (uwblk m c t) (gbblk m c t) (ubblk m c t) (ix2 r j)
      = aRow m c (rowOf t.val t.isLt r) (Cert.MlpSpec.tileCol (tileOf t.val) j) := by
  have e0 : (fun k => xblk m c t (ix2 r k)) = fun k => Xa m c (ix2 (rowOf t.val t.isLt r) k) :=
    funext fun k => xblk_at m c t r k _ rfl
  have e1 : (fun k => lwblk m c t (ix1 k)) = fun k => Lw m c (ix1 k) := funext fun k => lwblk_at m c t k
  have e2 : (fun k j => gwblk m c t (ix2 k j)) = fun k j => Gw m c (ix2 k (Cert.MlpSpec.tileCol (tileOf t.val) j)) :=
    funext fun k => funext fun j => gwblk_at m c t k j _ rfl
  have e3 : (fun j => gbblk m c t (ix1 j)) = fun j => Gb m c (ix1 (Cert.MlpSpec.tileCol (tileOf t.val) j)) :=
    funext fun j => gbblk_at m c t j _ rfl
  have e4 : (fun k j => uwblk m c t (ix2 k j)) = fun k j => Uw m c (ix2 k (Cert.MlpSpec.tileCol (tileOf t.val) j)) :=
    funext fun k => funext fun j => uwblk_at m c t k j _ rfl
  have e5 : (fun j => ubblk m c t (ix1 j)) = fun j => Ub m c (ix1 (Cert.MlpSpec.tileCol (tileOf t.val) j)) :=
    funext fun j => ubblk_at m c t j _ rfl
  rw [Cert.KernelIdeal.Pay.pay4_at, e0, e1, e2, e3, e4, e5]
  rfl

/-- What the scratch holds after point `n`: the shares of tiles `0 … n % 43` for the rows of block `n / 43`. -/
def accSpec (c : Dev nD) (n : Nat) (hn : n < cfg0.N) : Vec Ideal S512x2048 .f32 := fun y =>
  Cert.MlpSpec.accUpTo (aRow m c (rowOf n hn (y 0))) (dwF m c) (tileOf n) (y 1)

/-- This tile's product at (r, h) is the tile's share of the last layer. -/
theorem share_at (c : Dev nD) (t : Fin cfg0.N) (r : Fin 512) (h : Fin 2048) :
    ∑ j : Fin 128, k0_pay4 (F := Ideal) (xblk m c t) (lwblk m c t) (gwblk m c t) (uwblk m c t) (gbblk m c t) (ubblk m c t) (ix2 r j)
        * dwblk m c t (ix2 j h)
      = Cert.MlpSpec.partialDown (aRow m c (rowOf t.val t.isLt r)) (dwF m c) (tileOf t.val) h := by
  unfold Cert.MlpSpec.partialDown dwF
  refine Finset.sum_congr rfl fun j _ => ?_
  rw [gu_at m c t r j, dwblk_at m c t j h (Cert.MlpSpec.tileCol (tileOf t.val) j) rfl]

/-- At the first tile of a row block the scratch ends at that tile's share alone. -/
theorem scratch_first (c : Dev nD) (t : Fin cfg0.N) (h0 : t.val % 43 = 0) :
    (outsAt0 m c t.val t.isLt).2 = accSpec m c t.val t.isLt := by
  rw [outsAt0_A m c t h0]
  dsimp only
  refine (Cert.KernelIdeal.Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0)
    (xblk m c t) (lwblk m c t) (gwblk m c t) (gbblk m c t) (uwblk m c t) (ubblk m c t) (dwblk m c t) (dbblk m c t)).trans ?_
  funext y
  obtain ⟨r, h, rfl⟩ : ∃ (r : Fin 512) (h : Fin 2048), y = ix2 r h := ⟨y 0, y 1, eq_ix2 y⟩
  rw [Cert.KernelIdeal.Pay.pay1_at, Cert.KernelIdeal.Pay.pay3_at, zero_add, share_at m c t r h]
  exact (Cert.MlpSpec.accUpTo_zero _ _ (tileOf t.val) h0 h).symm

/-- At a later tile the scratch ends at what the point before left plus this tile's share. -/
theorem scratch_later (c : Dev nD) (t : Fin cfg0.N) (h0 : ¬t.val % 43 = 0)
    (ih : (outsAt0 m c (t.val - 1) (Nat.lt_of_le_of_lt (Nat.sub_le _ _) t.isLt)).2
      = accSpec m c (t.val - 1) (Nat.lt_of_le_of_lt (Nat.sub_le _ _) t.isLt)) :
    (outsAt0 m c t.val t.isLt).2 = accSpec m c t.val t.isLt := by
  rw [outsAt0_B m c t h0]
  dsimp only
  refine (Cert.KernelIdeal.Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))
    (xblk m c t) (lwblk m c t) (gwblk m c t) (gbblk m c t) (uwblk m c t) (ubblk m c t) (dwblk m c t) (dbblk m c t) (outsAt0 m c (t.val - 1) (Nat.lt_of_le_of_lt (Nat.sub_le _ _) t.isLt)).2).trans ?_
  funext y
  obtain ⟨r, h, rfl⟩ : ∃ (r : Fin 512) (h : Fin 2048), y = ix2 r h := ⟨y 0, y 1, eq_ix2 y⟩
  rw [Cert.KernelIdeal.Pay.pay1_at, share_at m c t r h, ih]
  have hrow : rowOf (t.val - 1) (Nat.lt_of_le_of_lt (Nat.sub_le _ _) t.isLt) r = rowOf t.val t.isLt r := by
    apply Fin.ext
    show (t.val - 1) / 43 * 512 + r.val = t.val / 43 * 512 + r.val
    have : (t.val - 1) / 43 = t.val / 43 := by omega
    rw [this]
  show Cert.MlpSpec.accUpTo (aRow m c (rowOf (t.val - 1) _ r)) (dwF m c) (tileOf (t.val - 1)) h + _ = Cert.MlpSpec.accUpTo (aRow m c (rowOf t.val t.isLt r)) (dwF m c) (tileOf t.val) h
  rw [hrow]
  refine (Cert.MlpSpec.accUpTo_succ _ _ (tileOf (t.val - 1)) (tileOf t.val) ?_ h).symm
  show t.val % 43 = (t.val - 1) % 43 + 1
  omega

/-- After every point the scratch holds the shares of the tiles done so far. -/
theorem scratch_eq (c : Dev nD) : ∀ (n : Nat) (hn : n < cfg0.N), (outsAt0 m c n hn).2 = accSpec m c n hn := by
  intro n
  induction n with
  | zero => intro hn; exact scratch_first m c ⟨0, hn⟩ rfl
  | succ n ih =>
    intro hn
    by_cases h0 : (n + 1) % 43 = 0
    · exact scratch_first m c ⟨n + 1, hn⟩ h0
    · exact scratch_later m c ⟨n + 1, hn⟩ h0 (ih (Nat.lt_of_succ_lt hn))

/-- At a later tile the output block is the new scratch contents plus the bias row. -/
theorem out_of_scratch (c : Dev nD) (t : Fin cfg0.N) (h0 : ¬t.val % 43 = 0) :
    (outsAt0 m c t.val t.isLt).1 = k0_pay2 (F := Ideal) (outsAt0 m c t.val t.isLt).2 (dbblk m c t) := by
  rw [outsAt0_B m c t h0]
  dsimp only
  exact (Cert.KernelIdeal.Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))
      (xblk m c t) (lwblk m c t) (gwblk m c t) (gbblk m c t) (uwblk m c t) (ubblk m c t) (dwblk m c t) (dbblk m c t) (outsAt0 m c (t.val - 1) (Nat.lt_of_le_of_lt (Nat.sub_le _ _) t.isLt)).2).trans
    (congrArg (fun z => k0_pay2 (F := Ideal) z (dbblk m c t))
      (Cert.KernelIdeal.Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h))
        (xblk m c t) (lwblk m c t) (gwblk m c t) (gbblk m c t) (uwblk m c t) (ubblk m c t) (dwblk m c t) (dbblk m c t) (outsAt0 m c (t.val - 1) (Nat.lt_of_le_of_lt (Nat.sub_le _ _) t.isLt)).2).symm)

/-- At the last tile of a row block the output block holds the whole last layer, bias included, for its rows. -/
theorem out_last (c : Dev nD) (t : Fin cfg0.N) (h42 : t.val % 43 = 42) (r : Fin 512) (h : Fin 2048) :
    (outsAt0 m c t.val t.isLt).1 (ix2 r h)
      = Cert.MlpSpec.down (aRow m c (rowOf t.val t.isLt r)) (dwF m c) (fun h => Db m c (ix1 h)) h := by
  rw [out_of_scratch m c t (by omega), Cert.KernelIdeal.Pay.pay2_at, scratch_eq m c t.val t.isLt, dbblk_at m c t h]
  exact Cert.MlpSpec.accUpTo_last _ _ (fun h => Db m c (ix1 h)) (tileOf t.val) h42 h

end Cert.KernelIdeal.Acc

end
-- ==== Proof.Final.lean ====
/-
  The kernel's result array after the run, and the program's result after the host's last lines.

  Only the last tile of a row block (t % 43 = 42) writes its output block back, and by then the block holds the whole last
  layer for its 512 token rows. The 32 row blocks tile the [16384, 2048] result, so the result array ends as one function
  of the arrays the kernel found: entry (R, h) is the last layer at column h of the gated product of token row R. The host
  then relays the rows out as [4, 4096, 2048] and multiplies by the 0/1 mask of the tokens.
-/
import proofs.«143900_j17162689315242_1_alg».proof.Proof.Acc
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Acc

variable (m : (ℓ : Loc nD τ sig) → Buf (Elt Ideal) ℓ) (ρ : Dev nD → PrngReg)

/-- The kernel's result array: the last layer of every token row's gated product. -/
def flat (c : Dev nD) : Buf (Elt Ideal) ((c : Thread nD τ).loc main_v4) := fun i =>
  Cert.MlpSpec.down (aRow m c (i 0)) (dwF m c) (fun h => Db m c (ix1 h)) (i 1)

/-- What a point that writes back writes: its block of `flat`. -/
theorem flushed_eq (c : Dev nD) (t : Fin cfg0.N) (hf : (cfg0.win 8).flush t = true) :
    (dats m 0 c).flushed 8 t = ((cfg0.win 8).blk t).view.read (Elt Ideal) (flat m c) := by
  have h42 : t.val % 43 = 42 := (flush0_8 t).mp hf
  show (cfg0.win 8).cut (grid0.coords t) ((dats m 0 c).after 8 t) = _
  rw [after0_8]
  have key : ∀ y : S512x2048.Idx, (outsAt0 m c t.val t.isLt).1 y = flat m c (ix2 (rowOf t.val t.isLt (y 0)) (y 1)) := by
    intro y
    obtain ⟨r, h, rfl⟩ : ∃ (r : Fin 512) (h : Fin 2048), y = ix2 r h := ⟨y 0, y 1, eq_ix2 y⟩
    exact out_last m c t h42 r h
  obtain ⟨-, -, -, -, -, -, -, -, -, -, -, -, e12, e13⟩ := idx_facts t
  funext y
  show (outsAt0 m c t.val t.isLt).1 y = flat m c (((cfg0.win 8).blk t).view.emb y)
  refine (key y).trans (congrArg (flat m c) ?_)
  funext a
  apply Fin.ext
  match a with
  | ⟨0, _⟩ => show t.val / 43 * 512 + (y 0).val = win0_8.index t 0 * 512 + 1 * (y 0).val; rw [e12]; omega
  | ⟨1, _⟩ => show (y 1).val = win0_8.index t 1 * 2048 + 1 * (y 1).val; rw [e13]; omega

/-- Every entry of the result array lies in the block some writing point writes: row `R` in the block of point
    `(R / 512)·43 + 42`. -/
theorem cover (i : S16384x2048.Idx) : ∃ t : Fin cfg0.N, (cfg0.win 8).flush t = true ∧ i ∈ ((cfg0.win 8).blk t).view.set := by
  have hN : cfg0.N = 1376 := N_0
  have hi0 : (i 0).val < 16384 := (i 0).isLt
  have hi1 : (i 1).val < 2048 := (i 1).isLt
  let t : Fin cfg0.N := ⟨(i 0).val / 512 * 43 + 42, by omega⟩
  have htv : t.val = (i 0).val / 512 * 43 + 42 := rfl
  obtain ⟨-, -, -, -, -, -, -, -, -, -, -, -, e12, e13⟩ := idx_facts t
  refine ⟨t, (flush0_8 t).mpr (by omega), ?_⟩
  show i ∈ ((View.whole main_v4).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [e12]; omega
  | ⟨1, _⟩ =>
    show win0_8.index t 1 * 2048 ≤ (i 1).val ∧ (i 1).val < win0_8.index t 1 * 2048 + 2048
    rw [e13]; omega

/-- The result array after the run. -/
theorem final (c : Dev nD) : (dats m 0 c).arrAt 8 cfg0.N = flat m c :=
  (dats m 0 c).arrAt_eq_of_cover 8 (flat m c) (flushed_eq m c) (cover)

end Cert.KernelIdeal.Final

end
-- ==== Proof.HostSide.lean ====
/-
  The host's lines around the kernel, and the program's result as one function of the arguments.

  Before the kernel the token array [4, 4096, 2048] is relaid out as [16384, 2048] (token (b, l) becomes row b·4096 + l) and
  the three weight matrices change format, which on the extended reals is the identity. After it the result is relaid out
  back and multiplied by the tokens' 0/1 mask, spread along the last axis. So the program ends with, at (b, l, h), the last
  layer at column h of the gated product of token row (b, l), times the mask at (b, l).
-/
import proofs.«143900_j17162689315242_1_alg».proof.Proof.Final
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostSide

open Cert.KernelIdeal Cert.KernelIdeal.Gen Cert.KernelIdeal.Blocks Cert.KernelIdeal.Acc Cert.KernelIdeal.Final

variable (m : (ℓ : Loc nD τ sig) → Buf (Elt Ideal) ℓ) (ρ : Dev nD → PrngReg)

/-! ## The arrays the kernel finds -/

theorem Xa_eq (c : Dev nD) : Xa m c = shapeCast S16384x2048 (m ((c : Thread nD τ).loc main_arg0)) shapeCasts_S4x4096x2048_S16384x2048 := by
  show StableHlo.after hostOps0 (fun b => m (c, b)) (Proc.devRef .tc main_v0) = _
  after_results
  rfl

/-- The format change is the identity on the extended reals. -/
theorem Gw_at (c : Dev nD) (i : S2048x5504.Idx) : Gw m c i = (m ((c : Thread nD τ).loc main_arg3)) i := by
  have e : Gw m c = truncf (F := Ideal) (s := S2048x5504) (φ := .f32) .bf16 (m ((c : Thread nD τ).loc main_arg3)) bitsLt_bf16_f32 := by
    show StableHlo.after hostOps0 (fun b => m (c, b)) (Proc.devRef .tc main_v1) = _
    after_results
  rw [e]
  rfl

/-- The format change is the identity on the extended reals. -/
theorem Uw_at (c : Dev nD) (i : S2048x5504.Idx) : Uw m c i = (m ((c : Thread nD τ).loc main_arg5)) i := by
  have e : Uw m c = truncf (F := Ideal) (s := S2048x5504) (φ := .f32) .bf16 (m ((c : Thread nD τ).loc main_arg5)) bitsLt_bf16_f32 := by
    show StableHlo.after hostOps0 (fun b => m (c, b)) (Proc.devRef .tc main_v2) = _
    after_results
  rw [e]
  rfl

/-- The format change is the identity on the extended reals. -/
theorem Dw_at (c : Dev nD) (i : S5504x2048.Idx) : Dw m c i = (m ((c : Thread nD τ).loc main_arg7)) i := by
  have e : Dw m c = truncf (F := Ideal) (s := S5504x2048) (φ := .f32) .bf16 (m ((c : Thread nD τ).loc main_arg7)) bitsLt_bf16_f32 := by
    show StableHlo.after hostOps0 (fun b => m (c, b)) (Proc.devRef .tc main_v3) = _
    after_results
  rw [e]
  rfl

/-- Row `b·4096 + l` of the flat token array is token (b, l). -/
theorem Xa_at (c : Dev nD) (b : Fin 4) (l : Fin 4096) (k : Fin 2048) (R : Fin 16384) (hR : R.val = b.val * 4096 + l.val) :
    Xa m c (ix2 R k) = (m ((c : Thread nD τ).loc main_arg0)) (ix3 b l k) := by
  rw [Xa_eq]
  refine shapeCast_apply _ _ (ix2 R k) (ix3 b l k) ?_
  rw [Shape.rowMajor_val_three, Shape.rowMajor_val_two]
  show (b.val * 4096 + l.val) * 2048 + k.val = R.val * 2048 + k.val
  rw [hR]

/-- The gated product row of token row `b·4096 + l`, over the arguments. -/
theorem aRow_eq (c : Dev nD) (b : Fin 4) (l : Fin 4096) (R : Fin 16384) (hR : R.val = b.val * 4096 + l.val) :
    aRow m c R = Cert.MlpSpec.gated (fun k => (m ((c : Thread nD τ).loc main_arg0)) (ix3 b l k)) (fun k => (m ((c : Thread nD τ).loc main_arg2)) (ix1 k))
      (fun k j => (m ((c : Thread nD τ).loc main_arg3)) (ix2 k j)) (fun j => (m ((c : Thread nD τ).loc main_arg4)) (ix1 j))
      (fun k j => (m ((c : Thread nD τ).loc main_arg5)) (ix2 k j)) (fun j => (m ((c : Thread nD τ).loc main_arg6)) (ix1 j)) := by
  unfold aRow
  have e0 : (fun k => Xa m c (ix2 R k)) = fun k => (m ((c : Thread nD τ).loc main_arg0)) (ix3 b l k) := funext fun k => Xa_at m c b l k R hR
  have e1 : (fun k => Lw m c (ix1 k)) = fun k => (m ((c : Thread nD τ).loc main_arg2)) (ix1 k) := funext fun k => congrFun (V_main_arg2 m c) (ix1 k)
  have e2 : (fun k j => Gw m c (ix2 k j)) = fun k j => (m ((c : Thread nD τ).loc main_arg3)) (ix2 k j) :=
    funext fun k => funext fun j => Gw_at m c (ix2 k j)
  have e3 : (fun j => Gb m c (ix1 j)) = fun j => (m ((c : Thread nD τ).loc main_arg4)) (ix1 j) := funext fun j => congrFun (V_main_arg4 m c) (ix1 j)
  have e4 : (fun k j => Uw m c (ix2 k j)) = fun k j => (m ((c : Thread nD τ).loc main_arg5)) (ix2 k j) :=
    funext fun k => funext fun j => Uw_at m c (ix2 k j)
  have e5 : (fun j => Ub m c (ix1 j)) = fun j => (m ((c : Thread nD τ).loc main_arg6)) (ix1 j) := funext fun j => congrFun (V_main_arg6 m c) (ix1 j)
  rw [e0, e1, e2, e3, e4, e5]

/-- The kernel's result array, relaid out as [4, 4096, 2048], is the specification's result before the mask. -/
theorem flat_reshape (c : Dev nD) :
    shapeCast S4x4096x2048 (flat m c) shapeCasts_S16384x2048_S4x4096x2048
      = Cert.MlpSpec.out3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, l, h, rfl⟩ : ∃ (b : Fin 4) (l : Fin 4096) (h : Fin 2048), i = ix3 b l h := ⟨i 0, i 1, i 2, eq_ix3 i⟩
  have hb := b.isLt
  have hl := l.isLt
  refine (shapeCast_apply (s := S16384x2048) (t := S4x4096x2048) (flat m c) shapeCasts_S16384x2048_S4x4096x2048 (ix3 b l h)
    (ix2 (⟨b.val * 4096 + l.val, by omega⟩ : Fin 16384) h) (by
      rw [Shape.rowMajor_val_three, Shape.rowMajor_val_two]
      rfl)).trans ?_
  unfold flat Cert.MlpSpec.out3
  show Cert.MlpSpec.down (aRow m c ⟨b.val * 4096 + l.val, _⟩) (dwF m c) (fun h => Db m c (ix1 h)) h = _
  rw [aRow_eq m c b l _ rfl]
  have ed : dwF m c = fun j h => (m ((c : Thread nD τ).loc main_arg7)) (ix2 j h) :=
    funext fun j => funext fun h => Dw_at m c (ix2 j h)
  have eb : (fun h => Db m c (ix1 h)) = fun h => (m ((c : Thread nD τ).loc main_arg8)) (ix1 h) := funext fun h => congrFun (V_main_arg8 m c) (ix1 h)
  rw [ed, eb]

/-! ## The program's result -/

/-- The tokens' 0/1 mask as a float, spread along the last axis. -/
abbrev maskArr (x1 : (⟨S4x4096, .i1⟩ : BufTy).Contents (Elt Ideal)) : (⟨S4x4096x2048, .f32⟩ : BufTy).Contents (Elt Ideal) :=
  broadcastInDim S4x4096x2048 ![0, 1, 2] bcast_S4x4096x1_S4x4096x2048_0_1_2 (uitofp (F := Ideal) .f32 (broadcastInDim S4x4096x1 ![0, 1] bcast_S4x4096_S4x4096x1_0_1 x1))

/-- The program's result on core `c`. -/
def result (c : Dev nD) : Buf (Elt Ideal) ((c : Thread nD τ).loc main_v9) :=
  mulf (F := Ideal) (s := S4x4096x2048) (φ := .f32) (Cert.MlpSpec.out3 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (maskArr (m ((c : Thread nD τ).loc main_arg1)))

/-- After the host's last lines the result buffer holds it. -/
theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  have e4 : Pipeline.withArrays (cfgs 0).spec c (V0 m c) (fun w => (dats m 0 c).arrAt w (cfgs 0).N) (Proc.devRef .tc main_v4) = flat m c :=
    (Pipeline.withArrays_arr spec0 launch0.win.arr_inj c _ _ 8).trans (final m c)
  have e1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  rw [e4, e1]
  show mulf (F := Ideal) (s := S4x4096x2048) (φ := .f32) (shapeCast S4x4096x2048 (flat m c) shapeCasts_S16384x2048_S4x4096x2048) (maskArr (m ((c : Thread nD τ).loc main_arg1))) = _
  rw [flat_reshape]
  rfl

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_v9 (Pipeline.mem_restRefs_of main_v9 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c)),
      ((h c).1 7).trans (((dats m 0 c).arrAt_in 7 rfl _).trans ((A_eq m c 7).trans (V_main_arg8 m c)))⟩) (run_main m ρ)

end Cert.KernelIdeal.HostSide

end
-- ==== Proof.RefSide.lean ====
import proofs.«143900_j17162689315242_1_alg».proof.Proof.Gen.ReferenceIdeal.Read
import proofs.«143900_j17162689315242_1_alg».proof.Proof.MlpSpec

/-
  The reference program computes, entry by entry, the row-by-row mathematics of Cert.MlpSpec.

  Entry (a, b, c) of the reference's result before the mask is the last affine layer at column c of the gated product of
  token row (a, b). The reference spells the sum of squares as an initial value (the word of +0.0) plus the sum, the
  logistic function as 1 / (1 + exp (-s)) with 1 the word of 1.0, and groups its products as (x · r) · w and
  (s · logistic s) · u: exactly the grouping of hn and gated. So each stage read at an index is, after the layout
  operations' index functions are identified with coordinates, the corresponding definition verbatim.
-/

noncomputable section

open scoped BigOperators

namespace Cert.RefSide

open Cert.ReferenceIdeal Cert.ReferenceIdeal.Read Idealize.ShloMosaic Idealize.ShloMosaic.ValueIdx Cert.MlpSpec

/-! ## The layout operations' index functions, by coordinates -/

/-- Row (a, b) at position k, as the sum of squares reads it through the two broadcasts of the row's scale. -/
theorem idx_sq (a : Fin 4) (b : Fin 4096) (c k : Fin 2048) :
    idx_main_v1 (idx_main_v2 (idx_main_v8 (ix3 a b c))) k = ix3 a b k :=
  funext fun d => Fin.ext (by match d with | ⟨0, _⟩ => rfl | ⟨1, _⟩ => rfl | ⟨2, _⟩ => rfl)

/-- The weight vector's entry under its two broadcasts. -/
theorem idx_lnw (a : Fin 4) (b : Fin 4096) (c : Fin 2048) :
    idx_main_v10 (idx_main_v11 (ix3 a b c)) = ix1 c :=
  funext fun d => Fin.ext (by match d with | ⟨0, _⟩ => rfl)

/-- The first bias's entry under its two broadcasts. -/
theorem idx_gb (a : Fin 4) (b : Fin 4096) (j : Fin 5504) :
    idx_main_v14 (idx_main_v15 (ix3 a b j)) = ix1 j :=
  funext fun d => Fin.ext (by match d with | ⟨0, _⟩ => rfl)

/-- The second bias's entry under its two broadcasts. -/
theorem idx_ub (a : Fin 4) (b : Fin 4096) (j : Fin 5504) :
    idx_main_v19 (idx_main_v20 (ix3 a b j)) = ix1 j :=
  funext fun d => Fin.ext (by match d with | ⟨0, _⟩ => rfl)

/-- The last bias's entry under its two broadcasts. -/
theorem idx_db (a : Fin 4) (b : Fin 4096) (c : Fin 2048) :
    idx_main_v24 (idx_main_v25 (ix3 a b c)) = ix1 c :=
  funext fun d => Fin.ext (by match d with | ⟨0, _⟩ => rfl)

/-- The first layer's left operand: row (a, b) at position k. -/
theorem lidx_g (a : Fin 4) (b : Fin 4096) (j : Fin 5504) (k : Fin 2048) :
    lidx_main_v13 (ix3 a b j) k = ix3 a b k :=
  funext fun d => Fin.ext (by match d with | ⟨0, _⟩ => rfl | ⟨1, _⟩ => rfl | ⟨2, _⟩ => rfl)

/-- The first layer's right operand: weight (k, j). -/
theorem ridx_g (a : Fin 4) (b : Fin 4096) (j : Fin 5504) (k : Fin 2048) :
    ridx_main_v13 (ix3 a b j) k = ix2 k j :=
  funext fun d => Fin.ext (by match d with | ⟨0, _⟩ => rfl | ⟨1, _⟩ => rfl)

/-- The second layer's left operand: row (a, b) at position k. -/
theorem lidx_u (a : Fin 4) (b : Fin 4096) (j : Fin 5504) (k : Fin 2048) :
    lidx_main_v18 (ix3 a b j) k = ix3 a b k :=
  funext fun d => Fin.ext (by match d with | ⟨0, _⟩ => rfl | ⟨1, _⟩ => rfl | ⟨2, _⟩ => rfl)

/-- The second layer's right operand: weight (k, j). -/
theorem ridx_u (a : Fin 4) (b : Fin 4096) (j : Fin 5504) (k : Fin 2048) :
    ridx_main_v18 (ix3 a b j) k = ix2 k j :=
  funext fun d => Fin.ext (by match d with | ⟨0, _⟩ => rfl | ⟨1, _⟩ => rfl)

/-- The last layer's left operand: the gated product of row (a, b) at column j. -/
theorem lidx_d (a : Fin 4) (b : Fin 4096) (c : Fin 2048) (j : Fin 5504) :
    lidx_main_v23 (ix3 a b c) j = ix3 a b j :=
  funext fun d => Fin.ext (by match d with | ⟨0, _⟩ => rfl | ⟨1, _⟩ => rfl | ⟨2, _⟩ => rfl)

/-- The last layer's right operand: weight (j, c). -/
theorem ridx_d (a : Fin 4) (b : Fin 4096) (c : Fin 2048) (j : Fin 5504) :
    ridx_main_v23 (ix3 a b c) j = ix2 j c :=
  funext fun d => Fin.ext (by match d with | ⟨0, _⟩ => rfl | ⟨1, _⟩ => rfl)

/-! ## The stages -/

/-- The scaled row: the reference's normalised, weighted input at (a, b, c) is hn of row (a, b) at c. -/
theorem ref_v12 (x0 : (⟨S4x4096x2048, .f32⟩ : BufTy).Contents (Elt Ideal)) (x2 : (⟨S2048, .f32⟩ : BufTy).Contents (Elt Ideal))
    (a : Fin 4) (b : Fin 4096) (c : Fin 2048) :
    val_main_v12 (F := Ideal) x0 x2 (ix3 a b c) = hn (fun k => x0 (ix3 a b k)) (fun k => x2 (ix1 k)) c := by
  rw [val_main_v12_apply, val_main_v9_apply, val_main_v8_apply, val_main_v7_apply, val_main_v6_apply, val_main_v4_apply,
    val_main_v2_apply, val_main_v1_apply, val_main_cst_apply, val_main_v3_apply, val_main_cst_0_apply, val_main_v5_apply,
    val_main_cst_1_apply, val_main_v11_apply, val_main_v10_apply]
  simp only [val_main_v0_apply, idx_sq, idx_lnw, Ideal.mulf_def, Ideal.addf_def, Ideal.hostDivf_def,
    Ideal.hostUnary_rsqrt_def, Ideal.ofBits_def, ofBits_zero, zero_add]
  rfl

/-- The first affine layer of the scaled row. -/
theorem ref_v16 (x0 : (⟨S4x4096x2048, .f32⟩ : BufTy).Contents (Elt Ideal)) (x2 : (⟨S2048, .f32⟩ : BufTy).Contents (Elt Ideal))
    (x3 : (⟨S2048x5504, .f32⟩ : BufTy).Contents (Elt Ideal)) (x4 : (⟨S5504, .f32⟩ : BufTy).Contents (Elt Ideal))
    (a : Fin 4) (b : Fin 4096) (j : Fin 5504) :
    val_main_v16 (F := Ideal) x0 x2 x3 x4 (ix3 a b j)
      = lin (hn (fun k => x0 (ix3 a b k)) (fun k => x2 (ix1 k))) (fun k j => x3 (ix2 k j)) (fun j => x4 (ix1 j)) j := by
  rw [val_main_v16_apply, val_main_v13_apply, val_main_v15_apply, val_main_v14_apply, idx_gb, Ideal.addf_def]
  unfold lin
  refine congrArg (· + _) (Finset.sum_congr rfl fun k _ => ?_)
  rw [lidx_g, ridx_g, ref_v12]

/-- The second affine layer of the scaled row. -/
theorem ref_v21 (x0 : (⟨S4x4096x2048, .f32⟩ : BufTy).Contents (Elt Ideal)) (x2 : (⟨S2048, .f32⟩ : BufTy).Contents (Elt Ideal))
    (x5 : (⟨S2048x5504, .f32⟩ : BufTy).Contents (Elt Ideal)) (x6 : (⟨S5504, .f32⟩ : BufTy).Contents (Elt Ideal))
    (a : Fin 4) (b : Fin 4096) (j : Fin 5504) :
    val_main_v21 (F := Ideal) x0 x2 x5 x6 (ix3 a b j)
      = lin (hn (fun k => x0 (ix3 a b k)) (fun k => x2 (ix1 k))) (fun k j => x5 (ix2 k j)) (fun j => x6 (ix1 j)) j := by
  rw [val_main_v21_apply, val_main_v18_apply, val_main_v20_apply, val_main_v19_apply, idx_ub, Ideal.addf_def]
  unfold lin
  refine congrArg (· + _) (Finset.sum_congr rfl fun k _ => ?_)
  rw [lidx_u, ridx_u, ref_v12]

/-- The gated product: the reference's s · (1 / (1 + exp (-s))) · u is s · logistic s · u. -/
theorem ref_v22 (x0 : (⟨S4x4096x2048, .f32⟩ : BufTy).Contents (Elt Ideal)) (x2 : (⟨S2048, .f32⟩ : BufTy).Contents (Elt Ideal))
    (x3 : (⟨S2048x5504, .f32⟩ : BufTy).Contents (Elt Ideal)) (x4 : (⟨S5504, .f32⟩ : BufTy).Contents (Elt Ideal))
    (x5 : (⟨S2048x5504, .f32⟩ : BufTy).Contents (Elt Ideal)) (x6 : (⟨S5504, .f32⟩ : BufTy).Contents (Elt Ideal))
    (a : Fin 4) (b : Fin 4096) (j : Fin 5504) :
    val_main_v22 (F := Ideal) x0 x2 x3 x4 x5 x6 (ix3 a b j)
      = gated (fun k => x0 (ix3 a b k)) (fun k => x2 (ix1 k)) (fun k j => x3 (ix2 k j)) (fun j => x4 (ix1 j))
          (fun k j => x5 (ix2 k j)) (fun j => x6 (ix1 j)) j := by
  rw [val_main_v22_apply, val_main_v17_apply, val_main_call0_v5_apply, val_main_call0_v4_apply, val_main_call0_cst_0_apply,
    val_main_call0_v3_apply, val_main_call0_v2_apply, val_main_call0_cst_apply, val_main_call0_v1_apply,
    val_main_call0_v0_apply, ref_v16, ref_v21]
  simp only [Ideal.mulf_def, Ideal.addf_def, Ideal.hostDivf_def, Ideal.hostUnary_exp_def, Ideal.hostNegf_def, Ideal.negf_def,
    Ideal.ofBits_def, ofBits_one]
  rfl

/-! ## The result before the mask -/

/-- The reference's result before the mask is the row-by-row mathematics. -/
theorem ref_v26 (x0 : (⟨Cert.ReferenceIdeal.S4x4096x2048, .f32⟩ : BufTy).Contents (Elt Ideal)) (x2 : (⟨Cert.ReferenceIdeal.S2048, .f32⟩ : BufTy).Contents (Elt Ideal)) (x3 : (⟨Cert.ReferenceIdeal.S2048x5504, .f32⟩ : BufTy).Contents (Elt Ideal)) (x4 : (⟨Cert.ReferenceIdeal.S5504, .f32⟩ : BufTy).Contents (Elt Ideal)) (x5 : (⟨Cert.ReferenceIdeal.S2048x5504, .f32⟩ : BufTy).Contents (Elt Ideal)) (x6 : (⟨Cert.ReferenceIdeal.S5504, .f32⟩ : BufTy).Contents (Elt Ideal)) (x7 : (⟨Cert.ReferenceIdeal.S5504x2048, .f32⟩ : BufTy).Contents (Elt Ideal)) (x8 : (⟨Cert.ReferenceIdeal.S2048, .f32⟩ : BufTy).Contents (Elt Ideal)) :
    Cert.ReferenceIdeal.Read.val_main_v26 (F := Ideal) x0 x2 x3 x4 x5 x6 x7 x8 = Cert.MlpSpec.out3 x0 x2 x3 x4 x5 x6 x7 x8 := by
  funext i
  obtain ⟨a, b, c, rfl⟩ : ∃ (a : Fin 4) (b : Fin 4096) (c : Fin 2048), i = ix3 a b c := ⟨i 0, i 1, i 2, eq_ix3 i⟩
  show _ = down (gated (fun k => x0 (ix3 a b k)) (fun k => x2 (ix1 k)) (fun k j => x3 (ix2 k j)) (fun j => x4 (ix1 j))
    (fun k j => x5 (ix2 k j)) (fun j => x6 (ix1 j))) (fun j h => x7 (ix2 j h)) (fun h => x8 (ix1 h)) c
  rw [val_main_v26_apply, val_main_v23_apply, val_main_v25_apply, val_main_v24_apply, idx_db, Ideal.addf_def]
  unfold down
  refine congrArg (· + _) (Finset.sum_congr rfl fun j _ => ?_)
  rw [lidx_d, ridx_d, ref_v22]

end Cert.RefSide

end
-- ==== Proof.lean ====
/-
  The certificate's claims. The kernel computes, for every token row, an RMS-normalised gated MLP whose last layer is
  accumulated over 43 column tiles in a scratch buffer; the reference computes the same layer in one sum. On the extended
  reals the tiled sum is the whole sum regrouped, so the two results agree entry by entry; both are then multiplied by the
  same 0/1 token mask. The three frames come with the programs' runs; the idealization rewrote nothing.
-/
import proofs.«143900_j17162689315242_1_alg».proof.Defs
import proofs.«143900_j17162689315242_1_alg».proof.Proof.Gen.Kernel
import proofs.«143900_j17162689315242_1_alg».proof.Proof.Gen.Kernel.Skeleton
import proofs.«143900_j17162689315242_1_alg».proof.Proof.Gen.Kernel.Launch
import proofs.«143900_j17162689315242_1_alg».proof.Proof.Gen.Kernel.Points
import proofs.«143900_j17162689315242_1_alg».proof.Proof.Gen.Kernel.Frame
import proofs.«143900_j17162689315242_1_alg».proof.Proof.Gen.KernelIdeal
import proofs.«143900_j17162689315242_1_alg».proof.Proof.Gen.KernelIdeal.Skeleton
import proofs.«143900_j17162689315242_1_alg».proof.Proof.Gen.KernelIdeal.Launch
import proofs.«143900_j17162689315242_1_alg».proof.Proof.Gen.KernelIdeal.Points
import proofs.«143900_j17162689315242_1_alg».proof.Proof.Gen.KernelIdeal.Frame
import proofs.«143900_j17162689315242_1_alg».proof.Proof.Gen.ReferenceIdeal
import proofs.«143900_j17162689315242_1_alg».proof.Proof.Gen.ReferenceIdeal.Run
import proofs.«143900_j17162689315242_1_alg».proof.Proof.Gen.ReferenceIdeal.Read
import proofs.«143900_j17162689315242_1_alg».proof.Proof.Gen.Pre_finite_inputs
import proofs.«143900_j17162689315242_1_alg».proof.Proof.HostSide
import proofs.«143900_j17162689315242_1_alg».proof.Proof.RefSide
import Idealize.ShloMosaic.Adequacy
import Idealize.ShloMosaic.Init

noncomputable section

namespace Cert.Proof

open Idealize.ShloMosaic Idealize.SL.Sem

/-- The kernel as printed runs, and its arguments end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the last layer of every token row's gated product times the token's mask: the kernel by its
    tiles' shares added up, the reference in one sum. -/
theorem algebraic : Cert.algebraic_KernelIdeal_ReferenceIdeal := by
  intro m ρ m' ρ' _ hagree
  refine ⟨fun c => Cert.KernelIdeal.HostSide.result m c, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  refine (Cert.ReferenceIdeal.Read.val_main_v30_eq (F := Ideal) _ _ _ _ _ _ _ _ _).trans ?_
  rw [a0, a1, a2, a3, a4, a5, a6, a7, a8]
  unfold Cert.ReferenceIdeal.Read.val_main_v30
  rw [Cert.RefSide.ref_v26]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
